-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S10000x10000 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩
abbrev S200x2560 : Shape := ⟨2, ![200, 2560]⟩
abbrev S2560x128 : Shape := ⟨2, ![2560, 128]⟩
abbrev S200x2320 : Shape := ⟨2, ![200, 2320]⟩
abbrev S2320x128 : Shape := ⟨2, ![2320, 128]⟩
abbrev S200 : Shape := ⟨1, ![200]⟩
abbrev S200x1 : Shape := ⟨2, ![200, 1]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x2560_0_0 : ∀ a, (![0, 0] : Fin 2 → Nat) a + S200x2560.size a ≤ S200x10000.size a
  h_S200x2560 : 0 < S200x2560.numel
  inb_S10000x128_S2560x128_0_0 : ∀ a, (![0, 0] : Fin 2 → Nat) a + S2560x128.size a ≤ S10000x128.size a
  h_S2560x128 : 0 < S2560x128.numel
  inb_S200x10000_S200x2560_0_2560 : ∀ a, (![0, 2560] : Fin 2 → Nat) a + S200x2560.size a ≤ S200x10000.size a
  inb_S10000x128_S2560x128_2560_0 : ∀ a, (![2560, 0] : Fin 2 → Nat) a + S2560x128.size a ≤ S10000x128.size a
  inb_S200x10000_S200x2560_0_5120 : ∀ a, (![0, 5120] : Fin 2 → Nat) a + S200x2560.size a ≤ S200x10000.size a
  inb_S10000x128_S2560x128_5120_0 : ∀ a, (![5120, 0] : Fin 2 → Nat) a + S2560x128.size a ≤ S10000x128.size a
  inb_S200x10000_S200x2320_0_7680 : ∀ a, (![0, 7680] : Fin 2 → Nat) a + S200x2320.size a ≤ S200x10000.size a
  h_S200x2320 : 0 < S200x2320.numel
  inb_S10000x128_S2320x128_7680_0 : ∀ a, (![7680, 0] : Fin 2 → Nat) a + S2320x128.size a ≤ S10000x128.size a
  h_S2320x128 : 0 < S2320x128.numel
  reduces_S200x128_S200 : S200x128.Reduces [1] S200
  shapeCasts_S200_S200x1 : S200.ShapeCasts S200x1
  broadcasts_S200x1_S200x128 : S200x1.Broadcasts S200x128
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x2560_S2560x128_S200x128_1_0_0_1_n_n_wf : DotDims.WF S200x2560 S2560x128 S200x128 [1] [0] [0] [1] [] []
  dot_S200x2320_S2320x128_S200x128_1_0_0_1_n_n_wf : DotDims.WF S200x2320 S2320x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x2560_S2560x128_S200x128_1_0_0_1_n_n : DotDims S200x2560 S2560x128 S200x128 where
  lhsContracting := [1]
  rhsContracting := [0]
  lhsNonContracting := [0]
  rhsNonContracting := [1]
  lhsBatch := []
  rhsBatch := []
  wf := dot_S200x2560_S2560x128_S200x128_1_0_0_1_n_n_wf
def dot_S200x2320_S2320x128_S200x128_1_0_0_1_n_n : DotDims S200x2320 S2320x128 S200x128 where
  lhsContracting := [1]
  rhsContracting := [0]
  lhsNonContracting := [0]
  rhsNonContracting := [1]
  lhsBatch := []
  rhsBatch := []
  wf := dot_S200x2320_S2320x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x10000, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000, .f32⟩
  | .hbm, ⟨10, _⟩ => ⟨S10000x1, .f32⟩
  | .hbm, ⟨11, _⟩ => ⟨S10000x1, .f32⟩
  | .hbm, ⟨12, _⟩ => ⟨S_, .f32⟩
  | .hbm, ⟨13, _⟩ => ⟨S10000x1, .f32⟩
  | .hbm, ⟨14, _⟩ => ⟨S10000x1, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The mathematics of one graph-convolution layer with a dense adjacency, over the extended reals.

  For features `x` (10000 × 128), two adjacency summands `a`, `b` (10000 × 10000) and weights `w` (128 × 128):
  the projection `support = x · w`, the aggregation `agg = (a + b) · support`, and each row of the aggregation divided
  by the larger of its Euclidean norm and a fixed positive threshold.  The aggregation's sum over the 10000 neighbours
  may be taken in one sweep or as four consecutive stretches (2560, 2560, 2560 and 2320 neighbours) added to zero in
  turn: addition on the extended reals is commutative and associative, so the two agree with no finiteness assumption.
-/
import Idealize.ShloMosaic.PureOps.Ideal.Laws
import Idealize.ShloMosaic.Lib.ValueIdx

noncomputable section

open scoped BigOperators

namespace Cert.Gcn

open Idealize.ShloMosaic Idealize.ShloMosaic.ValueIdx

/-- A sum over `n` consecutive naturals from `o`, written over `Fin n`, is the sum over `range n` of the
    function extended by zero. -/
theorem sum_stretch {M : Type*} [AddCommMonoid M] {N : ℕ} (f : Fin N → M) (n o : ℕ) (h : o + n ≤ N) :
    ∑ k : Fin n, f ⟨o + k.val, by have := k.isLt; omega⟩
      = ∑ k ∈ Finset.range n, (fun i => if hi : i < N then f ⟨i, hi⟩ else 0) (o + k) := by
  rw [← Fin.sum_univ_eq_sum_range (fun k => (fun i => if hi : i < N then f ⟨i, hi⟩ else 0) (o + k)) n]
  refine Finset.sum_congr rfl fun k _ => ?_
  have hk : o + k.val < N := by have := k.isLt; omega
  simp only [dif_pos hk]

/-- The sum over 10000 neighbours is the four stretches' sums added to zero one after the other. -/
theorem sum_four_stretches {M : Type*} [AddCommMonoid M] (f : Fin 10000 → M) :
    ((((0 : M) + ∑ k : Fin 2560, f ⟨0 + k.val, by have := k.isLt; omega⟩)
        + ∑ k : Fin 2560, f ⟨2560 + k.val, by have := k.isLt; omega⟩)
        + ∑ k : Fin 2560, f ⟨5120 + k.val, by have := k.isLt; omega⟩)
        + ∑ k : Fin 2320, f ⟨7680 + k.val, by have := k.isLt; omega⟩
      = ∑ k : Fin 10000, f k := by
  have hall : ∑ k : Fin 10000, f k = ∑ k : Fin 10000, f ⟨0 + k.val, by have := k.isLt; omega⟩ :=
    Finset.sum_congr rfl fun k _ => congrArg f (Fin.ext (Nat.zero_add _).symm)
  rw [hall, sum_stretch f 10000 0 (by omega), sum_stretch f 2560 0 (by omega), sum_stretch f 2560 2560 (by omega),
    sum_stretch f 2560 5120 (by omega), sum_stretch f 2320 7680 (by omega), zero_add]
  generalize (fun i => if hi : i < 10000 then f ⟨i, hi⟩ else 0) = g
  simp only [Nat.zero_add]
  rw [show Finset.range 10000 = Finset.range (7680 + 2320) from rfl, Finset.sum_range_add g 7680 2320,
    show Finset.range 7680 = Finset.range (5120 + 2560) from rfl, Finset.sum_range_add g 5120 2560,
    show Finset.range 5120 = Finset.range (2560 + 2560) from rfl, Finset.sum_range_add g 2560 2560]

/-- The projection: entry (k, c) of `x · w`. -/
def supportAt (x : (⟨2, ![10000, 128]⟩ : Shape).Idx → EReal) (w : (⟨2, ![128, 128]⟩ : Shape).Idx → EReal)
    (k : Fin 10000) (c : Fin 128) : EReal :=
  ∑ l : Fin 128, x (ix2 k l) * w (ix2 l c)

/-- The aggregation of row `r` of the adjacency sum, the row given by its two summands `a`, `b` as functions of the
    neighbour: entry `c` of `(a + b) · s`. -/
def aggRow (a b : Fin 10000 → EReal) (s : Fin 10000 → Fin 128 → EReal) (c : Fin 128) : EReal :=
  ∑ k : Fin 10000, (a k + b k) * s k c

/-- The divisor of a row: the larger of its Euclidean norm and the threshold. -/
def rowDivisor (o : Fin 128 → EReal) : EReal :=
  max (Ideal.sqrt (∑ c : Fin 128, o c * o c)) (Ideal.ofBits .f32 0x2B8CBCCC#32)

/-- A row of the layer from the row of the adjacency sum and the projection: every entry of the aggregated row over
    the row's divisor. -/
def layerRow (a b : Fin 10000 → EReal) (s : Fin 10000 → Fin 128 → EReal) (c : Fin 128) : EReal :=
  Ideal.div (aggRow a b s c) (rowDivisor (aggRow a b s))

/-- The layer at row `r`, column `c`. -/
def layerAt (x : (⟨2, ![10000, 128]⟩ : Shape).Idx → EReal) (a b : (⟨2, ![10000, 10000]⟩ : Shape).Idx → EReal)
    (w : (⟨2, ![128, 128]⟩ : Shape).Idx → EReal) (r : Fin 10000) (c : Fin 128) : EReal :=
  layerRow (fun k => a (ix2 r k)) (fun k => b (ix2 r k)) (supportAt x w) c

/-- The layer as an array. -/
def layer (x : (⟨2, ![10000, 128]⟩ : Shape).Idx → EReal) (a b : (⟨2, ![10000, 10000]⟩ : Shape).Idx → EReal)
    (w : (⟨2, ![128, 128]⟩ : Shape).Idx → EReal) : (⟨2, ![10000, 128]⟩ : Shape).Idx → EReal :=
  fun j => layerAt x a b w (j 0) (j 1)

theorem layer_ix2 (x : (⟨2, ![10000, 128]⟩ : Shape).Idx → EReal) (a b : (⟨2, ![10000, 10000]⟩ : Shape).Idx → EReal)
    (w : (⟨2, ![128, 128]⟩ : Shape).Idx → EReal) (r : Fin 10000) (c : Fin 128) :
    layer x a b w (ix2 r c) = layerAt x a b w r c := rfl

/-- The aggregated row with its sum taken in four consecutive stretches added to zero in turn. -/
theorem aggRow_stretches (a b : Fin 10000 → EReal) (s : Fin 10000 → Fin 128 → EReal) (c : Fin 128) :
    ((((0 : EReal)
        + ∑ k : Fin 2560, (a ⟨0 + k.val, by have := k.isLt; omega⟩ + b ⟨0 + k.val, by have := k.isLt; omega⟩)
            * s ⟨0 + k.val, by have := k.isLt; omega⟩ c)
        + ∑ k : Fin 2560, (a ⟨2560 + k.val, by have := k.isLt; omega⟩ + b ⟨2560 + k.val, by have := k.isLt; omega⟩)
            * s ⟨2560 + k.val, by have := k.isLt; omega⟩ c)
        + ∑ k : Fin 2560, (a ⟨5120 + k.val, by have := k.isLt; omega⟩ + b ⟨5120 + k.val, by have := k.isLt; omega⟩)
            * s ⟨5120 + k.val, by have := k.isLt; omega⟩ c)
        + ∑ k : Fin 2320, (a ⟨7680 + k.val, by have := k.isLt; omega⟩ + b ⟨7680 + k.val, by have := k.isLt; omega⟩)
            * s ⟨7680 + k.val, by have := k.isLt; omega⟩ c
      = aggRow a b s c :=
  sum_four_stretches fun k => (a k + b k) * s k c

end Cert.Gcn

end
-- ==== Proof.RefValue.lean ====
/-
  The reference, stage by stage, is the layer of Spec.lean: its two products are the projection and the
  aggregation, its row norm is the square root of the row's sum of squares (the sum's initial value is zero),
  and its last two stages take the larger of norm and threshold and divide by it.
-/
import proofs.«125500_g49323404427479_cont_8to1c4_576_27_alg».proof.Proof.Gen.ReferenceIdeal.Read
import proofs.«125500_g49323404427479_cont_8to1c4_576_27_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

theorem lidx_v2 (r : Fin 10000) (c : Fin 128) (k : Fin 10000) : lidx_main_v2 (ix2 r c) k = ix2 r k :=
  funext fun a => Fin.ext (by match a with | ⟨0, _⟩ => rfl | ⟨1, _⟩ => rfl)
theorem ridx_v2 (r : Fin 10000) (c : Fin 128) (k : Fin 10000) : ridx_main_v2 (ix2 r c) k = ix2 k c :=
  funext fun a => Fin.ext (by match a with | ⟨0, _⟩ => rfl | ⟨1, _⟩ => rfl)
theorem lidx_v1 (k : Fin 10000) (c : Fin 128) (l : Fin 128) : lidx_main_v1 (ix2 k c) l = ix2 k l :=
  funext fun a => Fin.ext (by match a with | ⟨0, _⟩ => rfl | ⟨1, _⟩ => rfl)
theorem ridx_v1 (k : Fin 10000) (c : Fin 128) (l : Fin 128) : ridx_main_v1 (ix2 k c) l = ix2 l c :=
  funext fun a => Fin.ext (by match a with | ⟨0, _⟩ => rfl | ⟨1, _⟩ => rfl)
theorem idx_row (r : Fin 10000) (c : Fin 128) (k : Fin 128) :
    idx_main_call0_v1 (idx_main_call0_v2 (idx_main_v6 (ix2 r c))) k = ix2 r k :=
  funext fun a => Fin.ext (by match a with | ⟨0, _⟩ => rfl | ⟨1, _⟩ => rfl)

variable (x0 : (⟨S10000x128, .f32⟩ : BufTy).Contents (Elt Ideal)) (x1 x2 : (⟨S10000x10000, .f32⟩ : BufTy).Contents (Elt Ideal))
  (x3 : (⟨S128x128, .f32⟩ : BufTy).Contents (Elt Ideal))

/-- The reference's second product, at row `r`, is the aggregation of the projection along that row. -/
theorem v2_at (r : Fin 10000) (c : Fin 128) :
    val_main_v2 (F := Ideal) x0 x1 x2 x3 (ix2 r c)
      = Cert.Gcn.aggRow (fun k => x1 (ix2 r k)) (fun k => x2 (ix2 r k)) (Cert.Gcn.supportAt x0 x3) c := by
  rw [val_main_v2_apply]
  unfold Cert.Gcn.aggRow
  refine Finset.sum_congr rfl fun k _ => ?_
  rw [val_main_v0_apply, val_main_v1_apply, lidx_v2, ridx_v2]
  unfold Cert.Gcn.supportAt
  simp only [lidx_v1, ridx_v1]
  rfl

/-- The squares the reference sums along a row are the aggregated row's. -/
theorem sq_at (r : Fin 10000) (c : Fin 128) :
    val_main_call0_v0 (F := Ideal) x0 x1 x2 x3 (ix2 r c)
      = Cert.Gcn.aggRow (fun k => x1 (ix2 r k)) (fun k => x2 (ix2 r k)) (Cert.Gcn.supportAt x0 x3) c
        * Cert.Gcn.aggRow (fun k => x1 (ix2 r k)) (fun k => x2 (ix2 r k)) (Cert.Gcn.supportAt x0 x3) c := by
  rw [val_main_call0_v0_apply, v2_at]; rfl

/-- The reference's result is the layer. -/
theorem ref_layer : val_main_v7 (F := Ideal) x0 x1 x2 x3 = Cert.Gcn.layer x0 x1 x2 x3 := by
  funext i
  obtain ⟨r, c, rfl⟩ : ∃ (r : Fin 10000) (c : Fin 128), i = ix2 r c := ⟨i 0, i 1, eq_ix2 i⟩
  rw [Cert.Gcn.layer_ix2, val_main_v7_apply, val_main_v6_apply, val_main_v5_apply, val_main_v3_apply, val_main_call0_v2_apply,
    val_main_call0_v1_apply, val_main_v4_apply, val_main_cst_apply, val_main_call0_cst_apply, v2_at]
  unfold Cert.Gcn.layerAt Cert.Gcn.layerRow Cert.Gcn.rowDivisor
  simp only [idx_row, sq_at, Ideal.hostDivf_def, Ideal.maximumf_def, Ideal.hostUnary_sqrt_def,
    Ideal.ofBits_def, Ideal.ofBits_zero_f32, zero_add]

end Cert.ReferenceIdeal.RefValue

end
-- ==== Proof.BlockTerm.lean ====
/-
  One grid point's result as one term of what the point reads: the 200-row blocks of the two adjacency summands and
  the contents of the buffer kept across points.  The three payloads are applied to twelve loads: for each of the
  four neighbour stretches (from neighbour 0, 2560, 5120 and 7680) the stretch's columns of either block and the
  stretch's rows of the kept buffer.
-/
import proofs.«125500_g49323404427479_cont_8to1c4_576_27_alg».proof.Proof.Gen.KernelIdeal.Skeleton
import Idealize.ShloMosaic.Lib.Pipeline.FrameBody

noncomputable section

namespace Cert.KernelIdeal.Body

open Cert.KernelIdeal Cert.KernelIdeal.Gen Idealize.ShloMosaic

variable {F : FTy → Type} [FloatOps F]

/-- The point's result from the two adjacency blocks `x2`, `x3` and the kept buffer's contents `s`. -/
def blockOut (x2 x3 : Vec F S200x10000 .f32) (s : Vec F S10000x128 .f32) : Vec F S200x128 .f32 :=
  k0_pay1
    (k0_pay3
      (View.ld x2 (Rect.unit (s := S200x10000) ![0, 0] S200x2560.size inb_S200x10000_S200x2560_0_0))
      (View.ld x3 (Rect.unit (s := S200x10000) ![0, 0] S200x2560.size inb_S200x10000_S200x2560_0_0))
      (View.ld s (Rect.unit (s := S10000x128) ![0, 0] S2560x128.size inb_S10000x128_S2560x128_0_0))
      (View.ld x2 (Rect.unit (s := S200x10000) ![0, 2560] S200x2560.size inb_S200x10000_S200x2560_0_2560))
      (View.ld x3 (Rect.unit (s := S200x10000) ![0, 2560] S200x2560.size inb_S200x10000_S200x2560_0_2560))
      (View.ld s (Rect.unit (s := S10000x128) ![2560, 0] S2560x128.size inb_S10000x128_S2560x128_2560_0))
      (View.ld x2 (Rect.unit (s := S200x10000) ![0, 5120] S200x2560.size inb_S200x10000_S200x2560_0_5120))
      (View.ld x3 (Rect.unit (s := S200x10000) ![0, 5120] S200x2560.size inb_S200x10000_S200x2560_0_5120))
      (View.ld s (Rect.unit (s := S10000x128) ![5120, 0] S2560x128.size inb_S10000x128_S2560x128_5120_0)))
    (k0_pay4
      (View.ld x2 (Rect.unit (s := S200x10000) ![0, 7680] S200x2320.size inb_S200x10000_S200x2320_0_7680))
      (View.ld x3 (Rect.unit (s := S200x10000) ![0, 7680] S200x2320.size inb_S200x10000_S200x2320_0_7680))
      (View.ld s (Rect.unit (s := S10000x128) ![7680, 0] S2320x128.size inb_S10000x128_S2320x128_7680_0)))

end Cert.KernelIdeal.Body

end
-- ==== Proof.KernelPieces.lean ====
/-
  What each of the body's two cases leaves behind, as terms of what the case reads.

  At the first point the body stores the projection of its two whole input blocks into the buffer it keeps across
  points and then reads that buffer back stretch by stretch; at every later point it only reads the buffer.  Either
  way the output block is the one term of BlockTerm.lean, applied to the projection just stored or to the buffer's
  contents as the point found them.
-/
import proofs.«125500_g49323404427479_cont_8to1c4_576_27_alg».proof.Proof.Gen.KernelIdeal.Frame
import proofs.«125500_g49323404427479_cont_8to1c4_576_27_alg».proof.Proof.BlockTerm
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A load, through any rectangle, of a buffer that one whole store has just filled reads the stored value through
    that rectangle. -/
theorem readCov_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-- The first point leaves the projection of its two whole input blocks in the kept buffer. -/
theorem sout_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S200x128 .f32) (harg5 : arg5.IsWhole) (arg6 : Memref sig .tc .vmem S10000x128 .f32) (harg6 : arg6.IsWhole) (hc0 : cond0_0 i)
    (x0 : Vec F S10000x128 .f32) (x1 : Vec F S128x128 .f32) (x2 : Vec F S200x10000 .f32) (x3 : Vec F S200x10000 .f32) :
    sout0_A_0 c i arg1 harg1 arg2 harg2 arg3 harg3 arg4 harg4 arg5 harg5 arg6 harg6 hc0 x0 x1 x2 x3 = k0_pay2 x0 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, View.ld_unit_zero (S := S10000x128) hz,
    View.ld_unit_zero (S := S128x128) hz]

/-- The first point's output block: the block term over the projection it has just stored. -/
theorem out_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S200x128 .f32) (harg5 : arg5.IsWhole) (arg6 : Memref sig .tc .vmem S10000x128 .f32) (harg6 : arg6.IsWhole) (hc0 : cond0_0 i)
    (x0 : Vec F S10000x128 .f32) (x1 : Vec F S128x128 .f32) (x2 : Vec F S200x10000 .f32) (x3 : Vec F S200x10000 .f32) :
    out0_A_4 c i arg1 harg1 arg2 harg2 arg3 harg3 arg4 harg4 arg5 harg5 arg6 harg6 hc0 x0 x1 x2 x3
      = Body.blockOut x2 x3 (k0_pay2 x0 x1) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, harg3.read_unread, harg4.read_unread,
    readCov_whole (S := S10000x128) _ hz, View.ld_unit_zero (S := S10000x128) hz, View.ld_unit_zero (S := S128x128) hz]
  rfl

/-- A later point's output block: the block term over the kept buffer as the point found it. -/
theorem out_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S200x128 .f32) (harg5 : arg5.IsWhole) (arg6 : Memref sig .tc .vmem S10000x128 .f32) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .f32) :
    out0_B_4 c i arg1 harg1 arg2 harg2 arg3 harg3 arg4 harg4 arg5 harg5 arg6 harg6 hc0 x0 x1 x2 x3 xs0
      = Body.blockOut x2 x3 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz]
  simp only [View.readAt_eq_ld, harg3.read_unread, harg4.read_unread, harg6.read_unread]
  rfl

end Cert.KernelIdeal.Pieces

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelBody.lean ====
/-
  What one grid point computes, as arithmetic on the extended reals.

  A point holds 200 rows of the two adjacency summands and, in a buffer kept across points, the projection `s`.
  It adds the two summands, multiplies the sum's four column stretches (2560, 2560, 2560, 2320 neighbours) by the
  matching row stretches of `s`, adds the four products to zero in turn, and divides each row of the result by the
  larger of its Euclidean norm and the threshold.  Read entry by entry this is a row of the layer of Spec.lean:
  the four stretches' sums are the one sum over all neighbours.
-/
import proofs.«125500_g49323404427479_cont_8to1c4_576_27_alg».proof.Proof.BlockTerm
import proofs.«125500_g49323404427479_cont_8to1c4_576_27_alg».proof.Proof.LibPlainDot
import proofs.«125500_g49323404427479_cont_8to1c4_576_27_alg».proof.Proof.LibKeepdims
import proofs.«125500_g49323404427479_cont_8to1c4_576_27_alg».proof.Proof.Spec
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## Loads of a stretch of columns or of rows, read at an entry -/

/-- A load of `n` columns from column `o` of an `R × C` array reads, at `(p, k)`, the array at `(p, o + k)`. -/
theorem ld_cols {Val : EltTy → Type} {e : EltTy} {R C n : ℕ} (X : (⟨2, ![R, C]⟩ : Shape).Idx → Val e) (o : ℕ)
    (inb : ∀ a, (![0, o] : Fin 2 → ℕ) a + (⟨2, ![R, n]⟩ : Shape).size a ≤ (⟨2, ![R, C]⟩ : Shape).size a)
    (p : Fin R) (k : Fin n) :
    View.ld X (Rect.unit (s := ⟨2, ![R, C]⟩) ![0, o] (⟨2, ![R, n]⟩ : Shape).size inb) (ix2 p k)
      = X (ix2 p ⟨o + k.val, lt_of_lt_of_le (Nat.add_lt_add_left k.isLt o) (inb 1)⟩) :=
  congrArg X (funext fun a => Fin.ext (by
    match a with
    | ⟨0, _⟩ => show 0 + 1 * p.val = p.val; omega
    | ⟨1, _⟩ => show o + 1 * k.val = o + k.val; omega))

/-- A load of `n` rows from row `o` of an `R × C` array reads, at `(k, q)`, the array at `(o + k, q)`. -/
theorem ld_rows {Val : EltTy → Type} {e : EltTy} {R C n : ℕ} (X : (⟨2, ![R, C]⟩ : Shape).Idx → Val e) (o : ℕ)
    (inb : ∀ a, (![o, 0] : Fin 2 → ℕ) a + (⟨2, ![n, C]⟩ : Shape).size a ≤ (⟨2, ![R, C]⟩ : Shape).size a)
    (k : Fin n) (q : Fin C) :
    View.ld X (Rect.unit (s := ⟨2, ![R, C]⟩) ![o, 0] (⟨2, ![n, C]⟩ : Shape).size inb) (ix2 k q)
      = X (ix2 ⟨o + k.val, lt_of_lt_of_le (Nat.add_lt_add_left k.isLt o) (inb 0)⟩ q) :=
  congrArg X (funext fun a => Fin.ext (by
    match a with
    | ⟨0, _⟩ => show o + 1 * k.val = o + k.val; omega
    | ⟨1, _⟩ => show 0 + 1 * q.val = q.val; omega))

/-! ## The three payloads at an entry -/

/-- The projection's payload is the projection. -/
theorem pay2_apply (x : Vec Ideal S10000x128 .f32) (w : Vec Ideal S128x128 .f32) (k : Fin 10000) (c : Fin 128) :
    k0_pay2 (F := Ideal) x w (ix2 k c) = Cert.Gcn.supportAt x w k c := by
  unfold k0_pay2
  rw [shapeCast_self]
  exact Cert.PlainDot.matmul_zero_apply dot_S10000x128_S128x128_S10000x128_1_0_0_1_n_n rfl none x w (ix2 k c)

/-- A row's sum of squares as the lane reduction computes it. -/
theorem rowsum_apply (v : FVec Ideal S200x128 .f32) (h : S200x128.Reduces [1] S200)
    (hφ : FKind.Formats .f32) (hacc : (0x00000000#32 : BitVec 32) = FKind.add.neutral .f32 hφ) (p : Fin 200) :
    multiReduction .add [1] S200 v 0x00000000#32 h hφ hacc (ix1 p) = ∑ c : Fin 128, v (ix2 p c) := by
  refine (Ideal.multiReduction_add_single v 0x00000000#32 h hφ hacc (ix1 p)).trans ?_
  refine Finset.sum_congr rfl fun c _ => congrArg v ?_
  exact funext fun a => Fin.ext (by match a with | ⟨0, _⟩ => rfl | ⟨1, _⟩ => rfl)

/-- The last payload: the sum of the two partial results, each row over the larger of its norm and the threshold. -/
theorem pay1_apply (v21 v26 : FVec Ideal S200x128 .f32) (p : Fin 200) (q : Fin 128) :
    k0_pay1 (F := Ideal) v21 v26 (ix2 p q)
      = Ideal.div (v21 (ix2 p q) + v26 (ix2 p q))
          (Cert.Gcn.rowDivisor fun c => v21 (ix2 p c) + v26 (ix2 p c)) := by
  unfold k0_pay1 Cert.Gcn.rowDivisor
  refine congrArg (Ideal.div _) (congrArg₂ max (congrArg Ideal.sqrt ?_) rfl)
  refine (Cert.Keepdims.shapeCast_a_a1_apply _ _ p 0).trans ?_
  refine (rowsum_apply _ _ _ _ p).trans ?_
  rfl

/-- Three stretches' products added to zero in turn. -/
theorem pay3_apply (v4 v5 : Vec Ideal S200x2560 .f32) (v7 : Vec Ideal S2560x128 .f32) (v10 v11 : Vec Ideal S200x2560 .f32)
    (v13 : Vec Ideal S2560x128 .f32) (v16 v17 : Vec Ideal S200x2560 .f32) (v19 : Vec Ideal S2560x128 .f32) (p : Fin 200) (q : Fin 128) :
    k0_pay3 (F := Ideal) v4 v5 v7 v10 v11 v13 v16 v17 v19 (ix2 p q)
      = (((0 : EReal) + ∑ k : Fin 2560, (v4 (ix2 p k) + v5 (ix2 p k)) * v7 (ix2 k q))
          + ∑ k : Fin 2560, (v10 (ix2 p k) + v11 (ix2 p k)) * v13 (ix2 k q))
          + ∑ k : Fin 2560, (v16 (ix2 p k) + v17 (ix2 p k)) * v19 (ix2 k q) := by
  unfold k0_pay3
  show ((Ideal.ofBits .f32 0x00000000#32
        + FloatOps.matmul dot_S200x2560_S2560x128_S200x128_1_0_0_1_n_n none (addf v4 v5) v7 (constant S200x128 .f32 0x00000000#32) (ix2 p q))
        + FloatOps.matmul dot_S200x2560_S2560x128_S200x128_1_0_0_1_n_n none (addf v10 v11) v13 (constant S200x128 .f32 0x00000000#32) (ix2 p q))
        + FloatOps.matmul dot_S200x2560_S2560x128_S200x128_1_0_0_1_n_n none (addf v16 v17) v19 (constant S200x128 .f32 0x00000000#32) (ix2 p q) = _
  rw [Ideal.ofBits_zero_f32,
    Cert.PlainDot.matmul_zero_apply dot_S200x2560_S2560x128_S200x128_1_0_0_1_n_n rfl none (addf v4 v5) v7 (ix2 p q),
    Cert.PlainDot.matmul_zero_apply dot_S200x2560_S2560x128_S200x128_1_0_0_1_n_n rfl none (addf v10 v11) v13 (ix2 p q),
    Cert.PlainDot.matmul_zero_apply dot_S200x2560_S2560x128_S200x128_1_0_0_1_n_n rfl none (addf v16 v17) v19 (ix2 p q)]
  rfl

/-- The fourth stretch's product. -/
theorem pay4_apply (v22 v23 : Vec Ideal S200x2320 .f32) (v25 : Vec Ideal S2320x128 .f32) (p : Fin 200) (q : Fin 128) :
    k0_pay4 (F := Ideal) v22 v23 v25 (ix2 p q) = ∑ k : Fin 2320, (v22 (ix2 p k) + v23 (ix2 p k)) * v25 (ix2 k q) := by
  unfold k0_pay4
  exact Cert.PlainDot.matmul_zero_apply dot_S200x2320_S2320x128_S200x128_1_0_0_1_n_n rfl none (addf v22 v23) v25 (ix2 p q)

/-! ## The point's result is a row of the layer -/

/-- The first three stretches' partial result, over the loads of BlockTerm.lean. -/
def part3 (x2 x3 : Vec Ideal S200x10000 .f32) (s : Vec Ideal S10000x128 .f32) : FVec Ideal S200x128 .f32 :=
  k0_pay3
    (View.ld x2 (Rect.unit (s := S200x10000) ![0, 0] S200x2560.size inb_S200x10000_S200x2560_0_0))
    (View.ld x3 (Rect.unit (s := S200x10000) ![0, 0] S200x2560.size inb_S200x10000_S200x2560_0_0))
    (View.ld s (Rect.unit (s := S10000x128) ![0, 0] S2560x128.size inb_S10000x128_S2560x128_0_0))
    (View.ld x2 (Rect.unit (s := S200x10000) ![0, 2560] S200x2560.size inb_S200x10000_S200x2560_0_2560))
    (View.ld x3 (Rect.unit (s := S200x10000) ![0, 2560] S200x2560.size inb_S200x10000_S200x2560_0_2560))
    (View.ld s (Rect.unit (s := S10000x128) ![2560, 0] S2560x128.size inb_S10000x128_S2560x128_2560_0))
    (View.ld x2 (Rect.unit (s := S200x10000) ![0, 5120] S200x2560.size inb_S200x10000_S200x2560_0_5120))
    (View.ld x3 (Rect.unit (s := S200x10000) ![0, 5120] S200x2560.size inb_S200x10000_S200x2560_0_5120))
    (View.ld s (Rect.unit (s := S10000x128) ![5120, 0] S2560x128.size inb_S10000x128_S2560x128_5120_0))

/-- The fourth stretch's partial result. -/
def part4 (x2 x3 : Vec Ideal S200x10000 .f32) (s : Vec Ideal S10000x128 .f32) : FVec Ideal S200x128 .f32 :=
  k0_pay4
    (View.ld x2 (Rect.unit (s := S200x10000) ![0, 7680] S200x2320.size inb_S200x10000_S200x2320_0_7680))
    (View.ld x3 (Rect.unit (s := S200x10000) ![0, 7680] S200x2320.size inb_S200x10000_S200x2320_0_7680))
    (View.ld s (Rect.unit (s := S10000x128) ![7680, 0] S2320x128.size inb_S10000x128_S2320x128_7680_0))

theorem blockOut_eq_parts (x2 x3 : Vec Ideal S200x10000 .f32) (s : Vec Ideal S10000x128 .f32) :
    blockOut (F := Ideal) x2 x3 s = k0_pay1 (F := Ideal) (part3 x2 x3 s) (part4 x2 x3 s) := rfl

/-- The two partial results add up, entry by entry, to the aggregated row: the four stretches cover the neighbours. -/
theorem parts_row (x2 x3 : Vec Ideal S200x10000 .f32) (s : Vec Ideal S10000x128 .f32) (p : Fin 200) (c : Fin 128) :
    part3 x2 x3 s (ix2 p c) + part4 x2 x3 s (ix2 p c)
      = Cert.Gcn.aggRow (fun k => x2 (ix2 p k)) (fun k => x3 (ix2 p k)) (fun k c => s (ix2 k c)) c := by
  unfold part3 part4
  rw [pay3_apply, pay4_apply]
  refine Eq.trans ?_ (Cert.Gcn.aggRow_stretches (fun k => x2 (ix2 p k)) (fun k => x3 (ix2 p k)) (fun k c => s (ix2 k c)) c)
  refine congrArg₂ (· + ·) (congrArg₂ (· + ·) (congrArg₂ (· + ·) (congrArg₂ (· + ·) rfl ?_) ?_) ?_) ?_
  all_goals refine Finset.sum_congr rfl fun k _ => ?_
  all_goals rw [ld_cols, ld_cols, ld_rows]

/-- One point's result at row `p` of its block is the layer's row made from row `p` of the two adjacency blocks and
    the kept buffer's contents. -/
theorem blockOut_apply (x2 x3 : Vec Ideal S200x10000 .f32) (s : Vec Ideal S10000x128 .f32) (p : Fin 200) (q : Fin 128) :
    blockOut (F := Ideal) x2 x3 s (ix2 p q)
      = Cert.Gcn.layerRow (fun k => x2 (ix2 p k)) (fun k => x3 (ix2 p k)) (fun k c => s (ix2 k c)) q := by
  rw [blockOut_eq_parts, pay1_apply]
  unfold Cert.Gcn.layerRow
  simp only [parts_row]

end Cert.KernelIdeal.Body

end
-- ==== Proof.KernelValue.lean ====
/-
  What the idealized kernel leaves in its result array: the layer of Spec.lean of its four argument arrays.

  The grid has 50 points; point `t` holds rows 200·t … 200·t + 199 of the two adjacency summands, the whole feature
  and weight arrays, and writes back rows 200·t … 200·t + 199 of the result.  The first point stores the projection
  in the buffer kept across points and no later point stores into it, so after every point the buffer holds the
  projection of the whole feature and weight arrays (induction on the point).  Each point's output block is then the
  layer's rows 200·t … 200·t + 199, and the 50 blocks cover the result array.
-/
import proofs.«125500_g49323404427479_cont_8to1c4_576_27_alg».proof.Proof.Gen.KernelIdeal.Value
import proofs.«125500_g49323404427479_cont_8to1c4_576_27_alg».proof.Proof.KernelPieces
import proofs.«125500_g49323404427479_cont_8to1c4_576_27_alg».proof.Proof.KernelBody

set_option maxRecDepth 16384

noncomputable section

open scoped BigOperators

namespace Cert.KernelIdeal.RunValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block index of each window at point `t`: the whole arrays sit at block (0, 0); the adjacency summands and the
    result move down one block of rows per point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The blocks a point reads, as parts of the argument arrays -/

abbrev xarr (c : Dev nD) : Vec Ideal S10000x128 .f32 := V m c main_arg0
abbrev warr (c : Dev nD) : Vec Ideal S128x128 .f32 := V m c main_arg3
abbrev aarr (c : Dev nD) : Vec Ideal S10000x10000 .f32 := V m c main_arg1
abbrev barr (c : Dev nD) : Vec Ideal S10000x10000 .f32 := V m c main_arg2
abbrev xblk (c : Dev nD) (t : Fin cfg0.N) : Vec Ideal S10000x128 .f32 := iblk m c 0 t
abbrev wblk (c : Dev nD) (t : Fin cfg0.N) : Vec Ideal S128x128 .f32 := iblk m c 1 t
abbrev ablk (c : Dev nD) (t : Fin cfg0.N) : Vec Ideal S200x10000 .f32 := iblk m c 2 t
abbrev bblk (c : Dev nD) (t : Fin cfg0.N) : Vec Ideal S200x10000 .f32 := iblk m c 3 t

/-- The feature block at any point is the feature array. -/
theorem xblk_at (c : Dev nD) (t : Fin cfg0.N) (k : Fin 10000) (l : Fin 128) : xblk m c t (ix2 k l) = xarr m c (ix2 k l) := by
  obtain ⟨e0, e1, -⟩ := idx_facts t
  have h : ((cfg0.win 0).blk t).view.emb (ix2 k l) = ix2 k l := by
    funext a; apply Fin.ext
    match a with
    | ⟨0, _⟩ => show win0_0.index t (0 : Fin 2) * 10000 + 1 * k.val = k.val; omega
    | ⟨1, _⟩ => show win0_0.index t (1 : Fin 2) * 128 + 1 * l.val = l.val; omega
  show V m c main_arg0 (((cfg0.win 0).blk t).view.emb (ix2 k l)) = V m c main_arg0 (ix2 k l)
  rw [h]

/-- The weight block at any point is the weight array. -/
theorem wblk_at (c : Dev nD) (t : Fin cfg0.N) (k : Fin 128) (l : Fin 128) : wblk m c t (ix2 k l) = warr m c (ix2 k l) := by
  obtain ⟨-, -, e0, e1, -⟩ := idx_facts t
  have h : ((cfg0.win 1).blk t).view.emb (ix2 k l) = ix2 k l := by
    funext a; apply Fin.ext
    match a with
    | ⟨0, _⟩ => show win0_1.index t (0 : Fin 2) * 128 + 1 * k.val = k.val; omega
    | ⟨1, _⟩ => show win0_1.index t (1 : Fin 2) * 128 + 1 * l.val = l.val; omega
  show V m c main_arg3 (((cfg0.win 1).blk t).view.emb (ix2 k l)) = V m c main_arg3 (ix2 k l)
  rw [h]

/-- Row `p` of the first adjacency block at point `t` is row 200·t + p of the first adjacency summand. -/
theorem ablk_at (c : Dev nD) (t : Fin cfg0.N) (p : Fin 200) (k : Fin 10000) (hr : 200 * t.val + p.val < 10000) :
    ablk m c t (ix2 p k) = aarr m c (ix2 (⟨200 * t.val + p.val, hr⟩ : Fin 10000) k) := by
  obtain ⟨-, -, -, -, e0, e1, -⟩ := idx_facts t
  have h : ((cfg0.win 2).blk t).view.emb (ix2 p k) = ix2 (⟨200 * t.val + p.val, hr⟩ : Fin 10000) k := by
    funext a; apply Fin.ext
    match a with
    | ⟨0, _⟩ => show win0_2.index t (0 : Fin 2) * 200 + 1 * p.val = 200 * t.val + p.val; omega
    | ⟨1, _⟩ => show win0_2.index t (1 : Fin 2) * 10000 + 1 * k.val = k.val; omega
  show V m c main_arg1 (((cfg0.win 2).blk t).view.emb (ix2 p k)) = V m c main_arg1 (ix2 (⟨200 * t.val + p.val, hr⟩ : Fin 10000) k)
  rw [h]

/-- Row `p` of the second adjacency block at point `t` is row 200·t + p of the second adjacency summand. -/
theorem bblk_at (c : Dev nD) (t : Fin cfg0.N) (p : Fin 200) (k : Fin 10000) (hr : 200 * t.val + p.val < 10000) :
    bblk m c t (ix2 p k) = barr m c (ix2 (⟨200 * t.val + p.val, hr⟩ : Fin 10000) k) := by
  obtain ⟨-, -, -, -, -, -, e0, e1, -⟩ := idx_facts t
  have h : ((cfg0.win 3).blk t).view.emb (ix2 p k) = ix2 (⟨200 * t.val + p.val, hr⟩ : Fin 10000) k := by
    funext a; apply Fin.ext
    match a with
    | ⟨0, _⟩ => show win0_3.index t (0 : Fin 2) * 200 + 1 * p.val = 200 * t.val + p.val; omega
    | ⟨1, _⟩ => show win0_3.index t (1 : Fin 2) * 10000 + 1 * k.val = k.val; omega
  show V m c main_arg2 (((cfg0.win 3).blk t).view.emb (ix2 p k)) = V m c main_arg2 (ix2 (⟨200 * t.val + p.val, hr⟩ : Fin 10000) k)
  rw [h]

/-! ## The kept buffer holds the projection after every point -/

/-- The projection of the whole feature and weight arrays, as an array. -/
abbrev proj (c : Dev nD) : Vec Ideal S10000x128 .f32 := fun j => Cert.Gcn.supportAt (xarr m c) (warr m c) (j 0) (j 1)

/-- The projection's payload on any point's feature and weight blocks is the projection of the arrays. -/
theorem proj_eq (c : Dev nD) (t : Fin cfg0.N) : k0_pay2 (F := Ideal) (xblk m c t) (wblk m c t) = proj m c := by
  funext j
  obtain ⟨k, l, rfl⟩ : ∃ (k : Fin 10000) (l : Fin 128), j = ix2 k l := ⟨j 0, j 1, eq_ix2 j⟩
  refine (Body.pay2_apply (xblk m c t) (wblk m c t) k l).trans ?_
  show Cert.Gcn.supportAt (xblk m c t) (wblk m c t) k l = Cert.Gcn.supportAt (xarr m c) (warr m c) k l
  unfold Cert.Gcn.supportAt
  refine Finset.sum_congr rfl fun i _ => ?_
  rw [xblk_at, wblk_at]

/-- After every point the kept buffer holds what the first point stored: the projection's payload on the first
    point's blocks. -/
theorem scratch_eq (c : Dev nD) : ∀ (n : ℕ) (hn : n < cfg0.N),
    (outsAt0 m c n hn).2
      = k0_pay2 (F := Ideal) (xblk m c ⟨0, Nat.lt_of_le_of_lt (Nat.zero_le n) hn⟩) (wblk m c ⟨0, Nat.lt_of_le_of_lt (Nat.zero_le n) hn⟩) := by
  intro n
  induction n with
  | zero =>
    intro hn
    rw [outsAt0_A m c ⟨0, hn⟩ (Nat.zero_mod 50)]
    dsimp only
    exact Pieces.sout_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _)
      ((hcond0_0 ⟨0, hn⟩).mpr (Nat.zero_mod 50)) (iblk m c 0 ⟨0, hn⟩) (iblk m c 1 ⟨0, hn⟩) (iblk m c 2 ⟨0, hn⟩) (iblk m c 3 ⟨0, hn⟩)
  | succ n ih =>
    intro hn
    have hN : n + 1 < 50 := lt_of_lt_of_eq hn (show cfg0.N = 50 from N_0)
    have h0 : ¬(n + 1) % 50 = 0 := by omega
    rw [outsAt0_B m c ⟨n + 1, hn⟩ h0]
    dsimp only
    unfold sout0_B_0
    exact ih _

/-! ## What each point writes back -/

/-- Point `t` writes back the block term over its two adjacency blocks and the projection. -/
theorem flushed_block (c : Dev nD) (t : Fin cfg0.N) :
    (dats m 0 c).flushed 4 t = (cfg0.win 4).cut (grid0.coords t) (Body.blockOut (ablk m c t) (bblk m c t) (proj m c)) := by
  by_cases h0 : t.val % 50 = 0
  · refine (flushed4_A m c t h0).trans (congrArg ((cfg0.win 4).cut (grid0.coords t)) ?_)
    refine (Pieces.out_A (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) ((hcond0_0 t).mpr h0) (iblk m c 0 t) (iblk m c 1 t) (iblk m c 2 t) (iblk m c 3 t)).trans ?_
    exact congrArg (Body.blockOut (ablk m c t) (bblk m c t)) (proj_eq m c t)
  · refine (flushed4_B m c t h0).trans (congrArg ((cfg0.win 4).cut (grid0.coords t)) ?_)
    refine (Pieces.out_B (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    exact congrArg (Body.blockOut (ablk m c t) (bblk m c t)) ((scratch_eq m c _ _).trans (proj_eq m c _))

/-- The layer of the argument arrays as the region finds them. -/
abbrev result (c : Dev nD) : Vec Ideal S10000x128 .f32 := Cert.Gcn.layer (xarr m c) (aarr m c) (barr m c) (warr m c)

/-- What point `t` writes back is block `t` of the layer. -/
theorem flushed_eq (c : Dev nD) (t : Fin cfg0.N) :
    (dats m 0 c).flushed 4 t = ((cfg0.win 4).blk t).view.read (Elt Ideal) (result m c) := by
  rw [flushed_block]
  funext j
  obtain ⟨p, q, rfl⟩ : ∃ (p : Fin 200) (q : Fin 128), j = ix2 p q := ⟨j 0, j 1, eq_ix2 j⟩
  have ht : t.val < 50 := lt_of_lt_of_eq t.isLt (show cfg0.N = 50 from N_0)
  have hr : 200 * t.val + p.val < 10000 := by have := p.isLt; omega
  obtain ⟨-, -, -, -, -, -, -, -, e0, e1⟩ := idx_facts t
  have hemb : ((cfg0.win 4).blk t).view.emb (ix2 p q) = ix2 (⟨200 * t.val + p.val, hr⟩ : Fin 10000) q := by
    funext a; apply Fin.ext
    match a with
    | ⟨0, _⟩ => show win0_4.index t (0 : Fin 2) * 200 + 1 * p.val = 200 * t.val + p.val; omega
    | ⟨1, _⟩ => show win0_4.index t (1 : Fin 2) * 128 + 1 * q.val = q.val; omega
  show Body.blockOut (ablk m c t) (bblk m c t) (proj m c) (ix2 p q) = result m c (((cfg0.win 4).blk t).view.emb (ix2 p q))
  rw [hemb]
  show _ = Cert.Gcn.layerAt (xarr m c) (aarr m c) (barr m c) (warr m c) (⟨200 * t.val + p.val, hr⟩ : Fin 10000) q
  rw [Body.blockOut_apply]
  unfold Cert.Gcn.layerAt
  have ha : (fun k => ablk m c t (ix2 p k)) = fun k => aarr m c (ix2 (⟨200 * t.val + p.val, hr⟩ : Fin 10000) k) :=
    funext fun k => ablk_at m c t p k hr
  have hb : (fun k => bblk m c t (ix2 p k)) = fun k => barr m c (ix2 (⟨200 * t.val + p.val, hr⟩ : Fin 10000) k) :=
    funext fun k => bblk_at m c t p k hr
  rw [ha, hb]

/-! ## The blocks cover the result array -/

theorem mem_blk (t : Fin cfg0.N) (i : S10000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v0).slice (win0_4.rect t)).set ↔ _
  rw [View.set_slice_whole, Rect.mem_set_unit]
  exact Iff.rfl

/-- Row `r` of the result is in the block of point `r / 200`. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 50 := N_0
  have ht : (i 0).val / 200 < cfg0.N := by rw [hN]; omega
  refine ⟨⟨(i 0).val / 200, ht⟩, flush0_4 _, ?_⟩
  rw [mem_blk]
  obtain ⟨-, -, -, -, -, -, -, -, e0, e1⟩ := idx_facts ⟨(i 0).val / 200, ht⟩
  intro a
  match a with
  | ⟨0, _⟩ =>
    show win0_4.index ⟨(i 0).val / 200, ht⟩ (0 : Fin 2) * 200 ≤ (i 0).val ∧ (i 0).val < win0_4.index ⟨(i 0).val / 200, ht⟩ (0 : Fin 2) * 200 + 200
    rw [e0]; dsimp only; omega
  | ⟨1, _⟩ =>
    show win0_4.index ⟨(i 0).val / 200, ht⟩ (1 : Fin 2) * 128 ≤ (i 1).val ∧ (i 1).val < win0_4.index ⟨(i 0).val / 200, ht⟩ (1 : Fin 2) * 128 + 128
    rw [e1]; omega

/-- The result array after the run is the layer of the argument arrays. -/
theorem final (c : Dev nD) : (dats m 0 c).arrAt 4 cfg0.N = result m c :=
  (dats m 0 c).arrAt_eq_of_cover 4 (result m c) (fun t _ => flushed_eq m c t) cover

/-- The run, read: the result at the layer of the arguments as launched, the arguments unchanged. -/
theorem run : θ_run defs (onTc (τ := τ) (main (F := Ideal))) ⟨m, fun _ => 0, ρ⟩ fun r => ∀ c : Dev nD,
      r.2.mem ((c : Thread nD τ).loc main_v0)
        = Cert.Gcn.layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.RunValue

end
-- ==== Proof.lean ====
/-
  One graph-convolution layer with a dense adjacency, kernel against reference, over the extended reals.

  Both programs compute, for features `x`, adjacency summands `a`, `b` and weights `w`,
  `out = (a + b) · (x · w)` and then divide every row of `out` by `max(‖row‖₂, ε)` with the same threshold `ε`.
  The reference does it array by array.  The kernel walks 50 blocks of 200 rows: at the first block it stores
  `x · w` in a buffer it keeps for the later blocks; at every block it sums the neighbours in four consecutive
  stretches added to zero in turn.  The stretches' sums are the one sum over all neighbours because addition of
  extended reals is commutative and associative; no finiteness of the inputs is used, and everything else is the same
  operation on both sides (Spec.lean states the common function, RefValue.lean and KernelValue.lean that each side
  computes it).  The kernel's idealization rewrote nothing, so the fourth conjunct is trivial; the frames of the two
  kernel programs are the generated ones, and the reference's frame is its run with the result forgotten.
-/
import proofs.«125500_g49323404427479_cont_8to1c4_576_27_alg».proof.Defs
import proofs.«125500_g49323404427479_cont_8to1c4_576_27_alg».proof.Proof.Gen.Kernel
import proofs.«125500_g49323404427479_cont_8to1c4_576_27_alg».proof.Proof.Gen.Kernel.Skeleton
import proofs.«125500_g49323404427479_cont_8to1c4_576_27_alg».proof.Proof.Gen.Kernel.Launch
import proofs.«125500_g49323404427479_cont_8to1c4_576_27_alg».proof.Proof.Gen.Kernel.Points
import proofs.«125500_g49323404427479_cont_8to1c4_576_27_alg».proof.Proof.Gen.Kernel.Frame
import proofs.«125500_g49323404427479_cont_8to1c4_576_27_alg».proof.Proof.Gen.KernelIdeal
import proofs.«125500_g49323404427479_cont_8to1c4_576_27_alg».proof.Proof.Gen.KernelIdeal.Skeleton
import proofs.«125500_g49323404427479_cont_8to1c4_576_27_alg».proof.Proof.Gen.KernelIdeal.Launch
import proofs.«125500_g49323404427479_cont_8to1c4_576_27_alg».proof.Proof.Gen.KernelIdeal.Points
import proofs.«125500_g49323404427479_cont_8to1c4_576_27_alg».proof.Proof.Gen.KernelIdeal.Frame
import proofs.«125500_g49323404427479_cont_8to1c4_576_27_alg».proof.Proof.Gen.ReferenceIdeal
import proofs.«125500_g49323404427479_cont_8to1c4_576_27_alg».proof.Proof.Gen.Pre_finite_inputs
import proofs.«125500_g49323404427479_cont_8to1c4_576_27_alg».proof.Proof.Gen.KernelIdeal.Value
import proofs.«125500_g49323404427479_cont_8to1c4_576_27_alg».proof.Proof.Gen.ReferenceIdeal.Run
import proofs.«125500_g49323404427479_cont_8to1c4_576_27_alg».proof.Proof.Gen.ReferenceIdeal.Read
import proofs.«125500_g49323404427479_cont_8to1c4_576_27_alg».proof.Proof.RefValue
import proofs.«125500_g49323404427479_cont_8to1c4_576_27_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the layer of the (agreeing) argument arrays. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
